-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x16384 .f32) (main_arg1 : FVec F S16384x64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x16384 : Shape := ⟨2, ![16384, 16384]⟩
abbrev S16384x64 : Shape := ⟨2, ![16384, 64]⟩
abbrev S256x16384 : Shape := ⟨2, ![256, 16384]⟩
abbrev S256x64 : Shape := ⟨2, ![256, 64]⟩

abbrev nBuf : Space → Nat
  | .hbm => 3
  | .vmem => 5
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S16384x64, .f32⟩
  | .local _ .vmem, ⟨0, _⟩ => ⟨S256x16384, .f32⟩
  | .local _ .vmem, ⟨1, _⟩ => ⟨S256x16384, .f32⟩
  | .local _ .vmem, ⟨2, _⟩ => ⟨S16384x64, .f32⟩
  | .local _ .vmem, ⟨3, _⟩ => ⟨S256x64, .f32⟩
  | .local _ .vmem, ⟨4, _⟩ => ⟨S256x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x16384_S256x16384_0_0 : ∀ a, (![0, 0] : Fin 2 → Nat) a + S256x16384.size a ≤ S256x16384.size a
  h_S256x16384 : 0 < S256x16384.numel
  bitsLt_bf16_f32 : FTy.bits .bf16 < FTy.bits .f32
  inb_S16384x64_S16384x64_0_0 : ∀ a, (![0, 0] : Fin 2 → Nat) a + S16384x64.size a ≤ S16384x64.size a
  h_S16384x64 : 0 < S16384x64.numel
  inb_S256x64_S256x64_0_0 : ∀ a, (![0, 0] : Fin 2 → Nat) a + S256x64.size a ≤ S256x64.size a
  h_S256x64 : 0 < S256x64.numel
  dot_S256x16384_S16384x64_S256x64_1_0_0_1_n_n_wf : DotDims.WF S256x16384 S16384x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)

variable [Facts₀]

def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf

abbrev win0_0 : Pipeline.Window sig grid0 :=
  Pipeline.Window.ofSpec (Memref.whole main_arg0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x16384 : Shape := ⟨2, ![16384, 16384]⟩
abbrev S16384x64 : Shape := ⟨2, ![16384, 64]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384x64, .f32⟩
  | .hbm, ⟨5, _⟩ => ⟨S16384x64, .i1⟩
  | .hbm, ⟨6, _⟩ => ⟨S_, .f32⟩
  | .hbm, ⟨7, _⟩ => ⟨S16384x64, .f32⟩
  | .hbm, ⟨8, _⟩ => ⟨S16384x64, .f32⟩
  | .hbm, ⟨9, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  dot_S16384x16384_S16384x64_S16384x64_1_0_0_1_n_n_wf : DotDims.WF S16384x16384 S16384x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Spec.lean ====
/-
  One graph-convolution layer as a function of its two arrays, over the extended reals.

  For an adjacency array `A` of 16384 × 16384 entries and an embedding array `E` of 16384 × 64 entries the layer's
  result at row `r` and column `q` is the leaky rectifier of slope one half applied to the row-by-column product
  `∑ k, A (r, k) · E (k, q)`: the product itself where it is at least zero, half of it elsewhere. Both constants are
  kept as the words the two programs print (the zero word and the word of one half); the same word stands on both
  sides, so neither is ever evaluated.
-/
import Idealize.ShloMosaic.PureOps.Ideal
import Idealize.ShloMosaic.Lib.ValueIdx

noncomputable section

open scoped BigOperators

namespace Cert.GraphConv

open Idealize.ShloMosaic Idealize.ShloMosaic.ValueIdx

/-- The leaky rectifier of slope one half on an extended real: `x` where `x ≥ 0`, `½ · x` elsewhere. -/
def leakyHalf (x : Ideal .f32) : Ideal .f32 :=
  Scalar.select (FloatOps.cmpf .oge x (FloatOps.ofBits .f32 0x00000000#32)) x
    (FloatOps.mulf (FloatOps.ofBits .f32 0x3F000000#32) x)

/-- Row `r` of the left array against column `q` of the right one: the sum over the shared axis of the products. -/
def rowDot {R Q : Nat} (A : FVec Ideal ⟨2, ![R, 16384]⟩ .f32) (E : FVec Ideal ⟨2, ![16384, Q]⟩ .f32)
    (r : Fin R) (q : Fin Q) : Ideal .f32 :=
  ∑ k : Fin 16384, A (ix2 r k) * E (ix2 k q)

/-- The layer: the leaky rectifier of every entry of the matrix product. -/
def layer (A : FVec Ideal ⟨2, ![16384, 16384]⟩ .f32) (E : FVec Ideal ⟨2, ![16384, 64]⟩ .f32) :
    FVec Ideal ⟨2, ![16384, 64]⟩ .f32 :=
  fun i => leakyHalf (rowDot A E (i 0) (i 1))

/-- The layer at explicit coordinates. -/
theorem layer_apply (A : FVec Ideal ⟨2, ![16384, 16384]⟩ .f32) (E : FVec Ideal ⟨2, ![16384, 64]⟩ .f32)
    (r : Fin 16384) (q : Fin 64) : layer A E (ix2 r q) = leakyHalf (rowDot A E r q) := rfl

end Cert.GraphConv

end
-- ==== Proof.BlockValue.lean ====
/-
  What one grid point computes, entry by entry.

  The body loads a block `x0` of 256 rows of the adjacency array (all 16384 columns) and the whole embedding array
  `x1`, multiplies them into a zero accumulator, and stores the leaky rectifier of the product. Over the extended
  reals the two narrowing format changes are the identity and the matrix unit's product into zero is the plain sum
  over the shared axis, so entry `(p, q)` of the stored block is the leaky rectifier of
  `∑ k, x0 (p, k) · x1 (k, q)`.
-/
import proofs.«107604_g84799834292721_cont_9to1_m_613_5_alg».proof.Proof.Gen.KernelIdeal.Skeleton
import proofs.«107604_g84799834292721_cont_9to1_m_613_5_alg».proof.Proof.Spec
import Idealize.ShloMosaic.PureOps.Ideal.Laws
import Idealize.ShloMosaic.Lib.ValueIdx

noncomputable section

open scoped BigOperators

namespace Cert.KernelIdeal.Layer

open Cert.KernelIdeal Cert.KernelIdeal.Gen Idealize.ShloMosaic Idealize.ShloMosaic.ValueIdx

/-! ## The product's operand indices, axis by axis -/

/-- The left operand is read at the output's row … -/
theorem lhs_row (i : S256x64.Idx) (s : dot_S256x16384_S16384x64_S256x64_1_0_0_1_n_n.contr.Idx) :
    (dot_S256x16384_S16384x64_S256x64_1_0_0_1_n_n.lhsIdx i s 0).val = (i 0).val := by
  unfold DotDims.lhsIdx
  rw [dif_neg (show ¬(0 : Fin S256x16384.rank) ∈ dot_S256x16384_S16384x64_S256x64_1_0_0_1_n_n.lhsBatch by decide), dif_pos (show (0 : Fin S256x16384.rank) ∈ dot_S256x16384_S16384x64_S256x64_1_0_0_1_n_n.lhsNonContracting by decide)]
  rfl
/-- … and at the contracted coordinate as its column; -/
theorem lhs_col (i : S256x64.Idx) (s : dot_S256x16384_S16384x64_S256x64_1_0_0_1_n_n.contr.Idx) :
    (dot_S256x16384_S16384x64_S256x64_1_0_0_1_n_n.lhsIdx i s 1).val = (s ⟨0, by decide⟩).val :=
  dot_S256x16384_S16384x64_S256x64_1_0_0_1_n_n.lhsIdx_val_of_single rfl i s
/-- the right operand at the contracted coordinate as its row … -/
theorem rhs_row (i : S256x64.Idx) (s : dot_S256x16384_S16384x64_S256x64_1_0_0_1_n_n.contr.Idx) :
    (dot_S256x16384_S16384x64_S256x64_1_0_0_1_n_n.rhsIdx i s 0).val = (s ⟨0, by decide⟩).val :=
  dot_S256x16384_S16384x64_S256x64_1_0_0_1_n_n.rhsIdx_val_of_single rfl i s
/-- … and at the output's column. -/
theorem rhs_col (i : S256x64.Idx) (s : dot_S256x16384_S16384x64_S256x64_1_0_0_1_n_n.contr.Idx) :
    (dot_S256x16384_S16384x64_S256x64_1_0_0_1_n_n.rhsIdx i s 1).val = (i 1).val := by
  unfold DotDims.rhsIdx
  rw [dif_neg (show ¬(1 : Fin S16384x64.rank) ∈ dot_S256x16384_S16384x64_S256x64_1_0_0_1_n_n.rhsBatch by decide), dif_pos (show (1 : Fin S16384x64.rank) ∈ dot_S256x16384_S16384x64_S256x64_1_0_0_1_n_n.rhsNonContracting by decide)]
  rfl

/-! ## The matrix unit's product at an entry -/

/-- Into a zero accumulator, with both operands narrowed first (the identity here), entry `(p, q)` of the product is
    the sum over `k` of `x0 (p, k) · x1 (k, q)`. -/
theorem product_apply (x0 : Vec Ideal S256x16384 .f32) (x1 : Vec Ideal S16384x64 .f32) (p : Fin 256) (q : Fin 64) :
    matmul dot_S256x16384_S16384x64_S256x64_1_0_0_1_n_n none (truncf .bf16 x0 bitsLt_bf16_f32) (truncf .bf16 x1 bitsLt_bf16_f32)
        (constant S256x64 .f32 0x00000000#32) (ix2 p q)
      = Cert.GraphConv.rowDot x0 x1 p q := by
  simp only [matmul]
  rw [Ideal.matmul_constant_zero_apply, ← Equiv.sum_comp (contrEquiv1 dot_S256x16384_S16384x64_S256x64_1_0_0_1_n_n 16384 rfl rfl).symm]
  unfold Cert.GraphConv.rowDot
  refine Finset.sum_congr rfl fun k _ => ?_
  have hk := contrEquiv1_symm_val dot_S256x16384_S16384x64_S256x64_1_0_0_1_n_n 16384 rfl rfl k
  have el : dot_S256x16384_S16384x64_S256x64_1_0_0_1_n_n.lhsIdx (ix2 p q) ((contrEquiv1 dot_S256x16384_S16384x64_S256x64_1_0_0_1_n_n 16384 rfl rfl).symm k) = ix2 p k := funext fun a => Fin.ext (by
    match a with
    | ⟨0, _⟩ => exact lhs_row _ _
    | ⟨1, _⟩ => exact (lhs_col _ _).trans hk)
  have er : dot_S256x16384_S16384x64_S256x64_1_0_0_1_n_n.rhsIdx (ix2 p q) ((contrEquiv1 dot_S256x16384_S16384x64_S256x64_1_0_0_1_n_n 16384 rfl rfl).symm k) = ix2 k q := funext fun a => Fin.ext (by
    match a with
    | ⟨0, _⟩ => exact (rhs_row _ _).trans hk
    | ⟨1, _⟩ => exact rhs_col _ _)
  rw [el, er]
  rfl

/-! ## The stored block at an entry -/

/-- Entry `(p, q)` of what the body stores: the leaky rectifier of row `p` of the loaded adjacency block against
    column `q` of the embeddings. -/
theorem stored_apply (x0 : Vec Ideal S256x16384 .f32) (x1 : Vec Ideal S16384x64 .f32) (p : Fin 256) (q : Fin 64) :
    k0_pay1 (F := Ideal) x0 x1 (ix2 p q) = Cert.GraphConv.leakyHalf (Cert.GraphConv.rowDot x0 x1 p q) := by
  unfold k0_pay1
  exact congrArg Cert.GraphConv.leakyHalf (product_apply x0 x1 p q)

end Cert.KernelIdeal.Layer

end
-- ==== Proof.KernelArray.lean ====
/-
  From the grid's 64 blocks to the whole result array.

  Grid point `t` stages rows `256·t … 256·t + 255` of the adjacency array (all columns) and the whole embedding
  array, and writes back rows `256·t … 256·t + 255` of the result. Entry `(p, q)` of what it writes is the leaky
  rectifier of adjacency row `256·t + p` against embedding column `q`, which is entry `(256·t + p, q)` of the layer:
  each point writes its own block of ONE whole-array function. Row `r` lies in the block of point `r / 256`, so the 64
  blocks cover the array and it ends holding the layer of the two arguments.
-/
import proofs.«107604_g84799834292721_cont_9to1_m_613_5_alg».proof.Proof.Gen.KernelIdeal.Value
import proofs.«107604_g84799834292721_cont_9to1_m_613_5_alg».proof.Proof.BlockValue

set_option maxRecDepth 16384

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a whole-block access, however they are spelt. -/
theorem origin : (![0, 0] : Fin 2 → Nat) = fun _ => 0 := funext fun a => by fin_cases a <;> rfl

/-- Where each window's block sits at point `t`: the adjacency window and the result window at row block `t`, column
    block 0; the embedding window always at block (0, 0). Decided over the 64 points. -/
theorem block_index : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0 :=
  (by decide +kernel : ∀ t : Fin grid0.N, _)

/-! ## One point's stored block is a block of the layer -/

/-- Over plain arrays: if `x0` is rows `256·n + p` of `A`, `x1` is `E`, and the array index `i` is the block index
    `y` moved down by `256·n` rows, then the stored block at `y` is the layer of `A` and `E` at `i`. -/
theorem stored_is_layer (A : FVec Ideal S16384x16384 .f32) (E : FVec Ideal S16384x64 .f32)
    (x0 : Vec Ideal S256x16384 .f32) (x1 : Vec Ideal S16384x64 .f32) (n : Nat) (y : S256x64.Idx) (i : S16384x64.Idx)
    (hx0 : ∀ (p : Fin 256) (k : Fin 16384) (r : Fin 16384), r.val = n * 256 + p.val → x0 (ix2 p k) = A (ix2 r k))
    (hx1 : x1 = E) (hi0 : (i 0).val = n * 256 + (y 0).val) (hi1 : (i 1).val = (y 1).val) :
    k0_pay1 (F := Ideal) x0 x1 y = Cert.GraphConv.layer A E i := by
  obtain ⟨p, q, rfl⟩ : ∃ (p : Fin 256) (q : Fin 64), y = ix2 p q := ⟨y 0, y 1, eq_ix2 y⟩
  obtain ⟨r, s, rfl⟩ : ∃ (r : Fin 16384) (s : Fin 64), i = ix2 r s := ⟨i 0, i 1, eq_ix2 i⟩
  obtain rfl : s = q := Fin.ext hi1
  subst hx1
  rw [stored_apply, Cert.GraphConv.layer_apply]
  unfold Cert.GraphConv.rowDot
  exact congrArg Cert.GraphConv.leakyHalf (Finset.sum_congr rfl fun k _ => congrArg (· * x1 (ix2 k s)) (hx0 p k r hi0))

/-- The adjacency window's block at point `t` is rows `256·t + p` of the adjacency array. -/
theorem adj_block (c : Dev nD) (t : Fin cfg0.N) (p : Fin 256) (k : Fin 16384) (r : Fin 16384)
    (hr : r.val = t.val * 256 + p.val) :
    (iblk m c 0 t : Vec Ideal S256x16384 .f32) (ix2 p k) = (V m c main_arg0 : FVec Ideal S16384x16384 .f32) (ix2 r k) := by
  obtain ⟨e00, e01, -, -, -, -⟩ := block_index t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 16384 + 1 * k.val = k.val; omega

/-- The embedding window's block at every point is the whole embedding array. -/
theorem emb_block (c : Dev nD) (t : Fin cfg0.N) :
    (iblk m c 1 t : Vec Ideal S16384x64 .f32) = (V m c main_arg1 : FVec Ideal S16384x64 .f32) := by
  obtain ⟨-, -, e10, e11, -, -⟩ := block_index t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 16384 + 1 * (y 0).val = (y 0).val; omega
  | ⟨1, _⟩ => show win0_1.index t (1 : Fin 2) * 64 + 1 * (y 1).val = (y 1).val; omega

/-- WHAT POINT `t` WRITES BACK is block `t` of the layer of the two argument arrays. -/
theorem flushed_eq (c : Dev nD) (t : Fin cfg0.N) :
    (dats m 0 c).flushed 2 t
      = ((cfg0.win 2).blk t).view.read (Elt Ideal) (Cert.GraphConv.layer (V m c main_arg0) (V m c main_arg1)) := by
  rw [Cert.KernelIdeal.Value.flushed2]
  unfold out0_2
  rw [View.canon_unit_zero origin]
  simp only [View.ld_unit_zero (S := S256x16384) origin, View.ld_unit_zero (S := S16384x64) origin]
  obtain ⟨-, -, -, -, e20, e21⟩ := block_index t
  funext j
  -- for ANY array `G`, block `t` of `G` read at `j` is `G` at the array index of `j`; the layer is such a `G`
  generalize hG : Cert.GraphConv.layer (V m c main_arg0) (V m c main_arg1) = G
  show k0_pay1 (F := Ideal) (iblk m c 0 t) (iblk m c 1 t) j = G (((cfg0.win 2).blk t).view.emb j)
  subst hG
  refine stored_is_layer (V m c main_arg0) (V m c main_arg1) (iblk m c 0 t) (iblk m c 1 t) t.val j
    (((cfg0.win 2).blk t).view.emb j) (adj_block m c t) (emb_block m c t) ?_ ?_
  · show win0_2.index t (0 : Fin 2) * 256 + 1 * (j 0).val = t.val * 256 + (j 0).val; omega
  · show win0_2.index t (1 : Fin 2) * 64 + 1 * (j 1).val = (j 1).val; omega

/-! ## The blocks cover the array -/

/-- An index of the result array is in point `t`'s block iff each coordinate is in the block's range on its axis. -/
theorem mem_block (t : Fin cfg0.N) (i : S16384x64.Idx) :
    i ∈ ((cfg0.win 2).blk t).view.set
      ↔ ∀ a : Fin 2, win0_2.index t a * S256x64.size a ≤ (i a).val ∧ (i a).val < win0_2.index t a * S256x64.size a + S256x64.size a := by
  show i ∈ ((View.whole main_v0).slice (win0_2.rect t)).set ↔ _
  rw [View.set_slice_whole, Rect.mem_set_unit]
  exact Iff.rfl

/-- Row `r` of the result lies in the block of point `r / 256`, and every point writes back. -/
theorem covered (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 64 := N_0
  obtain ⟨t, ht⟩ : ∃ t : Fin cfg0.N, t.val = (i 0).val / 256 := ⟨⟨(i 0).val / 256, by omega⟩, rfl⟩
  obtain ⟨-, -, -, -, e20, e21⟩ := block_index t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 64 ≤ (i 1).val ∧ (i 1).val < win0_2.index t (1 : Fin 2) * 64 + 64
    omega

/-! ## The result array, and the run -/

/-- THE RESULT ARRAY after the run is the layer of the two argument arrays as launched. -/
theorem final (c : Dev nD) :
    (dats m 0 c).arrAt 2 cfg0.N
      = Cert.GraphConv.layer (m ((c : Thread nD τ).loc main_arg0)) (m ((c : Thread nD τ).loc main_arg1)) :=
  (dats m 0 c).arrAt_eq_of_cover 2 (Cert.GraphConv.layer (V m c main_arg0) (V m c main_arg1))
    (fun t _ => flushed_eq m c t) (covered)

/-- Every weakly fair execution of the kernel's program ends with the result array at the layer of the arguments and
    the arguments unchanged. -/
theorem run : θ_run defs (onTc (τ := τ) (main (F := Ideal))) ⟨m, fun _ => 0, ρ⟩ fun r => ∀ c : Dev nD,
      r.2.mem ((c : Thread nD τ).loc main_v0)
        = Cert.GraphConv.layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Layer

end
-- ==== Proof.RefLayer.lean ====
/-
  The reference computes the layer.

  Its result is the select of three stages of one matrix product `P = A · E`: the comparison `P ≥ 0`, `P` itself and
  `½ · P`. Read at an index `(r, q)` the product is `∑ k, A (r, k) · E (k, q)` and the two constants are broadcasts of
  the zero word and of the word of one half, so the element is the leaky rectifier of the row-by-column product.
-/
import proofs.«107604_g84799834292721_cont_9to1_m_613_5_alg».proof.Proof.Gen.ReferenceIdeal.Read
import proofs.«107604_g84799834292721_cont_9to1_m_613_5_alg».proof.Proof.Spec

noncomputable section

open scoped BigOperators

namespace Cert.ReferenceIdeal.Layer

open Cert.ReferenceIdeal Cert.ReferenceIdeal.Read Idealize.ShloMosaic Idealize.ShloMosaic.ValueIdx

/-- The left operand's index of the product at `(i, k)` is row `i 0`, column `k`. -/
theorem lidx_eq (i : S16384x64.Idx) (k : Fin 16384) : lidx_main_v0 i k = ix2 (i 0) k :=
  funext fun a => Fin.ext (by match a with | ⟨0, _⟩ => rfl | ⟨1, _⟩ => rfl)

/-- The right operand's index is row `k`, column `i 1`. -/
theorem ridx_eq (i : S16384x64.Idx) (k : Fin 16384) : ridx_main_v0 i k = ix2 k (i 1) :=
  funext fun a => Fin.ext (by match a with | ⟨0, _⟩ => rfl | ⟨1, _⟩ => rfl)

/-- The reference's matrix product at an index is the row-by-column sum. -/
theorem product_apply (A : FVec Ideal S16384x16384 .f32) (E : FVec Ideal S16384x64 .f32) (i : S16384x64.Idx) :
    val_main_v0 (F := Ideal) A E i = Cert.GraphConv.rowDot A E (i 0) (i 1) := by
  rw [val_main_v0_apply]
  unfold Cert.GraphConv.rowDot
  exact Finset.sum_congr rfl fun k _ => congrArg₂ (· * ·) (congrArg A (lidx_eq i k)) (congrArg E (ridx_eq i k))

/-- The reference's last stage is the layer of its two arguments. -/
theorem result_eq (A : FVec Ideal S16384x16384 .f32) (E : FVec Ideal S16384x64 .f32) :
    val_main_v5 (F := Ideal) A E = Cert.GraphConv.layer A E := by
  funext i
  rw [val_main_v5_apply, val_main_v2_apply, val_main_v4_apply, val_main_v1_apply, val_main_v3_apply,
    val_main_cst_apply, val_main_cst_0_apply, product_apply]
  rfl

end Cert.ReferenceIdeal.Layer

end
-- ==== Proof.lean ====
/-
  One graph-convolution layer: `leaky_relu (adj · embeds, slope ½)` for `adj` of 16384 × 16384 and `embeds` of
  16384 × 64 entries, computed by a kernel that walks the rows of `adj` in 64 blocks of 256, against the same
  expression written with one whole matrix product.

  Over the extended reals both programs compute, at row `r` and column `q`, the leaky rectifier of slope one half
  of `∑ k, adj (r, k) · embeds (k, q)` (Proof/Spec.lean). The kernel: a narrowing format change is the identity and
  the matrix unit's product into a zero accumulator is that plain sum, so grid point `t` writes rows
  `256·t … 256·t + 255` of the layer (Proof/BlockValue.lean), and the 64 row blocks cover the result array
  (Proof/KernelArray.lean). The reference: its product read at an index is the same sum, and its select of
  `P ≥ 0`, `P` and `½ · P` is the rectifier (Proof/RefLayer.lean). The two sums are the same sum term by term — no
  regrouping, so no finiteness of the inputs is used — and the constants are the same two words on both sides.
  The word-level kernel and its reading over the extended reals are the same program text (no rewrite was
  applied), and each program's run leaves its argument arrays as they were.
-/
import proofs.«107604_g84799834292721_cont_9to1_m_613_5_alg».proof.Defs
import proofs.«107604_g84799834292721_cont_9to1_m_613_5_alg».proof.Proof.Gen.Kernel
import proofs.«107604_g84799834292721_cont_9to1_m_613_5_alg».proof.Proof.Gen.Kernel.Frame
import proofs.«107604_g84799834292721_cont_9to1_m_613_5_alg».proof.Proof.Gen.KernelIdeal
import proofs.«107604_g84799834292721_cont_9to1_m_613_5_alg».proof.Proof.Gen.KernelIdeal.Frame
import proofs.«107604_g84799834292721_cont_9to1_m_613_5_alg».proof.Proof.Gen.KernelIdeal.Value
import proofs.«107604_g84799834292721_cont_9to1_m_613_5_alg».proof.Proof.Gen.ReferenceIdeal
import proofs.«107604_g84799834292721_cont_9to1_m_613_5_alg».proof.Proof.Gen.ReferenceIdeal.Run
import proofs.«107604_g84799834292721_cont_9to1_m_613_5_alg».proof.Proof.Gen.ReferenceIdeal.Read
import proofs.«107604_g84799834292721_cont_9to1_m_613_5_alg».proof.Proof.Gen.Pre_finite_inputs
import proofs.«107604_g84799834292721_cont_9to1_m_613_5_alg».proof.Proof.KernelArray
import proofs.«107604_g84799834292721_cont_9to1_m_613_5_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs, and leaves its two argument arrays unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the two readings of the kernel. -/
theorem preserves : Cert.preserves_Kernel_KernelIdeal := trivial

/-- From memories that agree on `adj` and `embeds`, the kernel's result array and the reference's both end at the
    layer of the two arrays: the rectifier of every entry of the matrix product. -/
theorem algebraic : Cert.algebraic_KernelIdeal_ReferenceIdeal := by
  intro m ρ m' ρ' _ hagree
  refine ⟨fun c => Cert.GraphConv.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Layer.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
